-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S2x128 : Shape := ⟨2, ![2, 128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  slices_S2x1600000_S1x1600000_0_0 : S2x1600000.Slices ![0, 0] S1x1600000
  shapeCasts_S1x1600000_S1600000 : S1x1600000.ShapeCasts S1600000

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg1 : IVec S2x1600000 32) (main_arg5 : FVec F S2x128 .f32) (main_arg6 : FVec F S2x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![0, 0] · slices_S2x1600000_S1x1600000_0_0) main_arg1
  let main_v34 : IVec S1600000 32 := shapeCast S1600000 main_v33 shapeCasts_S1x1600000_S1600000
  fn_part2 (F := F) main_v28 main_v32 main_v34

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S2x128 .f32) (main_arg6 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S2x128 : Shape := ⟨2, ![2, 128]⟩
abbrev S1x1600000 : Shape := ⟨2, ![1, 1600000]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 80
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S128x128, .f32⟩
  | .hbm, ⟨12, _⟩ => ⟨S1x128, .f32⟩
  | .hbm, ⟨13, _⟩ => ⟨S100000x128, .f32⟩
  | .hbm, ⟨14, _⟩ => ⟨S1x128, .f32⟩
  | .hbm, ⟨15, _⟩ => ⟨S1x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x128, .f32⟩
  | .hbm, ⟨36, _⟩ => ⟨S1600000x128, .i1⟩
  | .hbm, ⟨37, _⟩ => ⟨S_, .f32⟩
  | .hbm, ⟨38, _⟩ => ⟨S1600000x128, .f32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1, .i32⟩
  | .hbm, ⟨59, _⟩ => ⟨S_, .i32⟩
  | .hbm, ⟨60, _⟩ => ⟨S1600000x1, .i32⟩
  | .hbm, ⟨61, _⟩ => ⟨S1600000x1, .i1⟩
  | .hbm, ⟨62, _⟩ => ⟨S1x1, .i32⟩
  | .hbm, ⟨63, _⟩ => ⟨S1600000x1, .i32⟩
  | .hbm, ⟨64, _⟩ => ⟨S1600000x1, .i1⟩
  | .hbm, ⟨65, _⟩ => ⟨S1600000x1, .i1⟩
  | .hbm, ⟨66, _⟩ => ⟨S_, .i1⟩
  | .hbm, ⟨67, _⟩ => ⟨S1600000, .i1⟩
  | .hbm, ⟨68, _⟩ => ⟨S1600000x128, .f32⟩
  | .hbm, ⟨69, _⟩ => ⟨S1600000x128, .i1⟩
  | .hbm, ⟨70, _⟩ => ⟨S_, .f32⟩
  | .hbm, ⟨71, _⟩ => ⟨S1600000x128, .f32⟩
  | .hbm, ⟨72, _⟩ => ⟨S1600000x128, .f32⟩
  | .hbm, ⟨73, _⟩ => ⟨S1600000x1, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_0 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x128_S1x128_0_0 : S2x128.Slices ![0, 0] S1x128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x128_S1x128_1_0 : S2x128.Slices ![1, 0] S1x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S2x128 : Shape := ⟨2, ![2, 128]⟩
abbrev S1x1600000 : Shape := ⟨2, ![1, 1600000]⟩
abbrev S1x128 : Shape := ⟨2, ![1, 128]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x128 : Shape := ⟨2, ![1600000, 128]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S128, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S128, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x128, .f32⟩
  | .hbm, ⟨114, _⟩ => ⟨S1600000x1, .f32⟩
  | .hbm, ⟨115, _⟩ => ⟨S1600000x128, .f32⟩
  | .hbm, ⟨116, _⟩ => ⟨S1600000x128, .f32⟩
  | .hbm, ⟨117, _⟩ => ⟨S_, .f32⟩
  | .hbm, ⟨118, _⟩ => ⟨S100000x128, .f32⟩
  | .hbm, ⟨119, _⟩ => ⟨S1600000x1, .i32⟩
  | .hbm, ⟨120, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v0 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call1_cst : Ref sig .tc := ⟨.hbm, 102, rfl⟩
abbrev main_call1_v0 : Ref sig .tc := ⟨.hbm, 103, rfl⟩
abbrev main_v80 : Ref sig .tc := ⟨.hbm, 104, rfl⟩
abbrev main_c_11 : Ref sig .tc := ⟨.hbm, 105, rfl⟩
abbrev main_v81 : Ref sig .tc := ⟨.hbm, 106, rfl⟩
abbrev main_v82 : Ref sig .tc := ⟨.hbm, 107, rfl⟩
abbrev main_c_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128_S1x128_0_0 : S2x128.Slices ![0, 0] S1x128
  shapeCasts_S1x128_S128 : S1x128.ShapeCasts S128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x128_S1x128_1_0 : S2x128.Slices ![1, 0] S1x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The mathematics of the graph-convolution pipeline, index by index over the extended reals, with no program in
  sight: a linear layer (a row of `x` against a column of the transposed weight, plus the bias row), and a
  LayerNorm over the 128 features of one row (mean, variance, inverse square root of the variance plus a small
  offset, the scale and bias rows) followed by the maximum with zero. Both the tiled kernel and the whole-array
  reference are shown to compute these functions, so the two meet here.
-/
import Idealize.ShloMosaic.PureOps.Ideal
import Idealize.ShloMosaic.PureOps.Ideal.Laws
import Idealize.ShloMosaic.Lib.ValueIdx

noncomputable section

namespace Gcn

open Idealize.ShloMosaic Idealize.ShloMosaic.ValueIdx

/-- nodes × features -/
abbrev SN : Shape := ⟨2, ![100000, 128]⟩
/-- the weight, and its transpose -/
abbrev SW : Shape := ⟨2, ![128, 128]⟩
/-- one row of 128 features -/
abbrev SR : Shape := ⟨2, ![1, 128]⟩
/-- a vector of 128 features -/
abbrev SV : Shape := ⟨1, ![128]⟩
/-- the two layers' scale (or bias) rows -/
abbrev S2R : Shape := ⟨2, ![2, 128]⟩

/-- The feature count 128, the variance offset and zero: the binary words both programs carry, read exactly. -/
def c128 : EReal := Ideal.ofBits .f32 0x43000000#32
def ceps : EReal := Ideal.ofBits .f32 0x3727C5AC#32
def czero : EReal := Ideal.ofBits .f32 0x00000000#32

/-- The transposed weight: entry (k, q) of the transpose is entry (q, k). -/
def tr (w : SW.Idx → EReal) : SW.Idx → EReal := fun j => w (ix2 (j 1) (j 0))
/-- A vector of 128 features laid out as one row. -/
def rowOf (b : SV.Idx → EReal) : SR.Idx → EReal := fun j => b (ix1 (j 1))
/-- Row `r` of a two-row table, as one row. -/
def sliceRow (r : Fin 2) (s : S2R.Idx → EReal) : SR.Idx → EReal := fun j => s (ix2 r (j 1))

/-- The linear layer at node `p`, feature `q`: row `p` of `x` against column `q` of `wT`, plus the bias. -/
def linAt (x : SN.Idx → EReal) (wT : SW.Idx → EReal) (b : SR.Idx → EReal) (p : Fin 100000) (q : Fin 128) : EReal :=
  (∑ k : Fin 128, x (ix2 p k) * wT (ix2 k q)) + b (ix2 0 q)
def linG (x : SN.Idx → EReal) (wT : SW.Idx → EReal) (b : SR.Idx → EReal) : SN.Idx → EReal :=
  fun i => linAt x wT b (i 0) (i 1)

/-- The mean of row `p`. -/
def rowMean (h : SN.Idx → EReal) (p : Fin 100000) : EReal := Ideal.div (∑ k : Fin 128, h (ix2 p k)) c128
/-- The variance of row `p`: the mean of the squared deviations. -/
def rowVar (h : SN.Idx → EReal) (p : Fin 100000) : EReal :=
  Ideal.div (∑ k : Fin 128, (h (ix2 p k) - rowMean h p) * (h (ix2 p k) - rowMean h p)) c128
/-- LayerNorm of row `p` at feature `q`, scaled and shifted, then the maximum with zero. -/
def lnAt (h : SN.Idx → EReal) (s b : SR.Idx → EReal) (p : Fin 100000) (q : Fin 128) : EReal :=
  max ((h (ix2 p q) - rowMean h p) * Ideal.rsqrt (rowVar h p + ceps) * s (ix2 0 q) + b (ix2 0 q)) czero
def lnG (h : SN.Idx → EReal) (s b : SR.Idx → EReal) : SN.Idx → EReal :=
  fun i => lnAt h s b (i 0) (i 1)

/-- The residual sum of two node-by-feature arrays, entry by entry. -/
def addG (a b : SN.Idx → EReal) : SN.Idx → EReal := fun i => a i + b i

end Gcn

end
-- ==== Proof.Layout.lean ====
/-
  Three layout operations read index by index: transposing the 128 × 128 weight swaps the two coordinates, laying a
  vector of 128 features out as one row keeps its entries, and slicing one row out of a two-row table picks that row.
-/
import proofs.«424276_j34720515620917_2_alg».proof.Proof.Spec
import Idealize.ShloMosaic.Lib.Pipeline.Value
import Idealize.ShloMosaic.Lib.ValueIdx
import Idealize.ShloMosaic.Lib.ValueLayout

noncomputable section

namespace Gcn

open Idealize.ShloMosaic Idealize.ShloMosaic.ValueIdx

/-- The transpose of the weight, entry by entry. -/
theorem transpose_tr (w : FVec Ideal SW .f32) (h : SW.Transposes [1, 0] SW) :
    transpose SW [1, 0] w h = tr w := by
  funext i
  unfold tr
  exact transpose_apply [1, 0] w h i (ix2 (i 1) (i 0)) (fun b => match b with
    | ⟨0, _⟩ => rfl
    | ⟨1, _⟩ => rfl)

/-- A vector of 128 features reshaped to one row. -/
theorem shapeCast_rowOf (b : FVec Ideal SV .f32) (h : SV.ShapeCasts SR) :
    shapeCast SR b h = rowOf b := by
  funext i
  unfold rowOf
  exact shapeCast_apply b h i (ix1 (i 1))
    (by rewrite [Shape.rowMajor_val_two, Shape.rowMajor_val_one]
        have h0 : (i 0).val < 1 := (i 0).isLt
        have h1 : (i 1).val < 128 := (i 1).isLt
        show (i 1).val = (i 0).val * 128 + (i 1).val
        omega)

/-- Row 0 of a two-row table. -/
theorem slice_row0 (s : FVec Ideal S2R .f32) (h : S2R.Slices ![0, 0] SR) :
    extractStridedSlice SR ![0, 0] s h = sliceRow 0 s := by
  funext i
  unfold sliceRow
  exact extractStridedSlice_apply ![0, 0] s h i (ix2 0 (i 1)) (fun a => match a with
    | ⟨0, _⟩ => by have h0 : (i 0).val < 1 := (i 0).isLt; show (0 : ℕ) = 0 + (i 0).val; omega
    | ⟨1, _⟩ => by show (i 1).val = 0 + (i 1).val; omega)

/-- Row 1 of a two-row table. -/
theorem slice_row1 (s : FVec Ideal S2R .f32) (h : S2R.Slices ![1, 0] SR) :
    extractStridedSlice SR ![1, 0] s h = sliceRow 1 s := by
  funext i
  unfold sliceRow
  exact extractStridedSlice_apply ![1, 0] s h i (ix2 1 (i 1)) (fun a => match a with
    | ⟨0, _⟩ => by have h0 : (i 0).val < 1 := (i 0).isLt; show (1 : ℕ) = 1 + (i 0).val; omega
    | ⟨1, _⟩ => by show (i 1).val = 0 + (i 1).val; omega)

end Gcn

end
-- ==== Proof.Take.lean ====
import proofs.«424276_j34720515620917_2_alg».proof.KernelIdeal
import proofs.«424276_j34720515620917_2_alg».proof.Pre_finite_inputs
import proofs.«424276_j34720515620917_2_alg».proof.Proof.Gen.KernelIdeal
import proofs.«424276_j34720515620917_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Take

open Idealize.ShloMosaic Cert.KernelIdeal Cert.KernelIdeal.Facts₀ Cert.KernelIdeal.Facts

/-- The source-node row of the edge list, as a vector of 1,600,000 node numbers. -/
def srcOf (x1 : IVec S2x1600000 32) : IVec S1600000 32 :=
  shapeCast S1600000 (extractStridedSlice S1x1600000 ![0, 0] x1 slices_S2x1600000_S1x1600000_0_0) shapeCasts_S1x1600000_S1600000

/-- Node numbers with the negative ones moved up by the node count, as a column. -/
def normIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The kernel side's row gather: the rows at the normalised node numbers where those are in range, and the
    fill word elsewhere. -/
def takeK (h : FVec Ideal S100000x128 .f32) (s : IVec S1600000 32) : FVec Ideal S1600000x128 .f32 :=
  select
    (broadcastInDim S1600000x128 ![0] bcast_S1600000_S1600000x128_0
      (Host.reduce IntOp.andi
        (andi (cmpi .sge (normIdx s) (broadcastInDim S1600000x1 ![] bcast_S_S1600000x1 (constantI S_ 32 0#32)))
          (cmpi .sle (normIdx s) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 h (normIdx s))
    (broadcastInDim S1600000x128 ![] bcast_S_S1600000x128 (constant S_ .f32 0x7FC00000#32))

/-- The scalar shape has one index. -/
local instance subsingletonScalarIdx : Subsingleton S_.Idx := ⟨fun a b => funext fun d => d.elim0⟩

/-- A left fold by `and` that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from 1 over an array of 1s is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose mask is 1 everywhere is its first branch. -/
theorem select_of_ones {s : Shape} {α : Type} (c : IVec s 1) (a b : s.Idx → α) (hc : ∀ i, c i = 1#1) :
    select c a b = a := by
  funext i
  show Scalar.select (c i) (a i) (b i) = a i
  rw [hc i]; rfl

/-- What the precondition's last conjunct says: every source node number, read as a signed word, lies in
    [0, 100000). -/
theorem src_range (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (hpre : Cert.Pre_finite_inputs.fn (F := Ideal) x0 x1 x2 x3 x4 x5 x6 = fun _ => 1#1) (e : S1600000.Idx) :
    0 ≤ (srcOf x1 e).toInt ∧ (srcOf x1 e).toInt < 100000 := by
  have h0 := congrFun hpre ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 e
  obtain ⟨hge, hlt⟩ := IntOp.andi_eq_one.1 h2
  have hge' := IntOp.cmpi_sge.1 hge
  have hlt' := IntOp.cmpi_slt.1 hlt
  exact ⟨hge', hlt'⟩

/-- A node number in [0, 100000) is not negative, so normalising leaves it alone: every entry of the
    normalised column is one of the given node numbers, hence in [0, 99999]. -/
theorem normIdx_range (s : IVec S1600000 32) (hs : ∀ e, 0 ≤ (s e).toInt ∧ (s e).toInt < 100000) (i : S1600000x1.Idx) :
    0 ≤ (normIdx s i).toInt ∧ (normIdx s i).toInt ≤ 99999 := by
  dsimp only [normIdx, broadcastInDim, select, cmpi, addi, constantI]
  generalize (fun a : Fin S1600000.rank => _ : S1600000.Idx) = e
  obtain ⟨h0, h1⟩ := hs e
  have hneg : ¬ IntOp.cmpi .slt (s e) 0#32 = 1#1 := by
    rw [IntOp.cmpi_slt, show (0#32 : BitVec 32).toInt = 0 from by decide]; omega
  rw [Scalar.select, if_neg (show ¬ IntOp.cmpi .slt (s e) 0#32 = 1 from hneg)]
  exact ⟨h0, by omega⟩

/-- Where every source node number lies in [0, 100000) — which the precondition says — no row is filled: the
    gather with the fill is the plain gather. -/
theorem take_eq (h : FVec Ideal S100000x128 .f32)
    (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (hpre : Cert.Pre_finite_inputs.fn (F := Ideal) x0 x1 x2 x3 x4 x5 x6 = fun _ => 1#1) :
    takeK h (srcOf x1) = Host.gather gather_S100000x128_S1600000x1_S1600000x128_1_0_n_n_0_1_1128 h (normIdx (srcOf x1)) := by
  unfold takeK
  refine select_of_ones _ _ _ (fun i => ?_)
  refine reduce_andi_ones _ _ _ _ (fun k => ?_) (fun _ => rfl) _
  obtain ⟨h0, h1⟩ := normIdx_range (srcOf x1) (src_range x0 x1 x2 x3 x4 x5 x6 hpre) k
  refine IntOp.andi_eq_one.2 ⟨IntOp.cmpi_sge.2 ?_, IntOp.cmpi_sle.2 ?_⟩
  · show (0#32 : BitVec 32).toInt ≤ _
    rw [show (0#32 : BitVec 32).toInt = 0 from by decide]; exact h0
  · show _ ≤ (99999#32 : BitVec 32).toInt
    rw [show (99999#32 : BitVec 32).toInt = 99999 from by decide]; exact h1

end Cert.KernelIdeal.Take

end
-- ==== Proof.RegionLinear.lean ====
import proofs.«424276_j34720515620917_2_alg».proof.Proof.Gen.KernelIdeal.Frame
import proofs.«424276_j34720515620917_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The block product at an index

The body multiplies a 2000 × 128 block of `x` by the whole 128 × 128 transposed weight and adds the bias row to every
row of the product. The product contracts axis 1 of the left operand with axis 0 of the right one; the four lemmas
below read the two operand indices of the product at output index `i` and contraction position `q`, axis by axis. -/

/-- The left operand's row is the output's row. -/
theorem lin_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction position. -/
theorem lin_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction position. -/
theorem lin_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem lin_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a block of rows with the weight, into a zero accumulator, at row `p` and column `q`: the sum over
    the 128 features of row `p` of the block against column `q` of the weight. -/
theorem blockProduct_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lin_lhs_0 _ _
    | ⟨1, _⟩ => exact (lin_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (lin_rhs_0 _ _).trans hk
    | ⟨1, _⟩ => exact lin_rhs_1 _ _)
  rw [el, er]

/-- What the body stores, at row `p` and column `q` of its block: row `p` of the block of `x` against column `q` of the
    transposed weight, plus the bias at `q` (the roundings to the narrower format are the identity over the extended
    reals, and the reshapes keep the shape). -/
theorem payload_apply (x0 : FVec Ideal S2000x128 .f32) (x1 : FVec Ideal S128x128 .f32) (x2 : FVec Ideal S1x128 .f32)
    (p : Fin 2000) (q : Fin 128) :
    k0_pay1 (F := Ideal) x0 x1 x2 (ix2 p q) = (∑ k : Fin 128, x0 (ix2 p k) * x1 (ix2 k q)) + x2 (ix2 0 q) := by
  unfold k0_pay1
  rw [addf_apply, shapeCast_self, shapeCast_self, broadcastTo_1b_ab_apply, blockProduct_apply]
  rfl

variable (V : (c : Dev nD) → (b : Ref sig .tc) → Buf (Elt Ideal) ((c : Thread nD τ).loc b))

/-! ## From blocks to the array

The grid has 50 points; point `t` reads rows `2000 t … 2000 t + 1999` of `x`, the whole transposed weight and the whole
bias row, and writes the same rows of the output. -/

/-- The three arrays the region reads, as it finds them: the node features, the transposed weight, the bias row. -/
abbrev xarr (c : Dev nD) : Gcn.SN.Idx → EReal := V c (Pipeline.arrRef spec0 0)
abbrev warr (c : Dev nD) : Gcn.SW.Idx → EReal := V c (Pipeline.arrRef spec0 1)
abbrev barr (c : Dev nD) : Gcn.SR.Idx → EReal := V c (Pipeline.arrRef spec0 2)

theorem zeroOffsets : (![0, 0] : Fin 2 → Nat) = fun _ => 0 := funext fun a => by fin_cases a <;> rfl

/-- The index maps over the grid: the blocks of `x` and of the output move down the rows with the point, the weight's
    and the bias row's stay put. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of `x` at point `t` is row `2000 t + p` of `x`. -/
theorem xblock_apply (c : Dev nD) (t : Fin cfg0.N) (p : Fin 2000) (k : Fin 128) (r : Fin 100000)
    (hr : r.val = t.val * 2000 + p.val) :
    iblk0 (F := Ideal) V c 0 t (ix2 p k) = xarr V c (ix2 r k) := by
  obtain ⟨e0, e1, -⟩ := blockIndex t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The block of the transposed weight at any point is the whole of it. -/
theorem wblock_apply (c : Dev nD) (t : Fin cfg0.N) (k q : Fin 128) :
    iblk0 (F := Ideal) V c 1 t (ix2 k q) = warr V c (ix2 k q) := by
  obtain ⟨-, -, e0, e1, -⟩ := blockIndex t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The block of the bias row at any point is the whole of it. -/
theorem bblock_apply (c : Dev nD) (t : Fin cfg0.N) (q : Fin 128) :
    iblk0 (F := Ideal) V c 2 t (ix2 (0 : Fin 1) q) = barr V c (ix2 (0 : Fin 1) q) := by
  obtain ⟨-, -, -, -, e0, e1, -⟩ := blockIndex t
  show V c (Pipeline.arrRef spec0 2) (((cfg0.win 2).blk t).view.emb (ix2 (0 : Fin 1) q)) = V c (Pipeline.arrRef spec0 2) (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What point `t` writes back is block `t` of the linear layer of the three arrays. -/
theorem flushed_eq (c : Dev nD) (t : Fin cfg0.N) :
    (dat0 (F := Ideal) V c).flushed 3 t
      = ((cfg0.win 3).blk t).view.read (Elt Ideal) (Gcn.linG (xarr V c) (warr V c) (barr V c)) := by
  show (cfg0.win 3).cut (grid0.coords t) ((dat0 (F := Ideal) V c).after 3 t) = _
  rw [after0_3]
  unfold out0_3
  rw [View.canon_unit_zero zeroOffsets]
  simp only [View.ld_unit_zero (S := S2000x128) zeroOffsets, View.ld_unit_zero (S := S128x128) zeroOffsets,
    View.ld_unit_zero (S := S1x128) zeroOffsets]
  funext j
  obtain ⟨-, -, -, -, -, -, e0, e1⟩ := blockIndex t
  have ht : t.val < 50 := lt_of_lt_of_eq t.isLt N_0
  have hj0 : (j 0).val < 2000 := (j 0).isLt
  have hj1 : (j 1).val < 128 := (j 1).isLt
  have hx : (cfg0.win 3).xinj (grid0.coords t) j = ix2 (⟨(j 0).val, hj0⟩ : Fin 2000) (⟨(j 1).val, hj1⟩ : Fin 128) :=
    funext fun a => by match a with | ⟨0, _⟩ => rfl | ⟨1, _⟩ => rfl
  have hr : t.val * 2000 + (j 0).val < 100000 := by omega
  have hemb : ((cfg0.win 3).blk t).view.emb j
      = ix2 (⟨t.val * 2000 + (j 0).val, hr⟩ : Fin 100000) (⟨(j 1).val, hj1⟩ : Fin 128) := by
    refine funext fun a => Fin.ext ?_
    match a with
    | ⟨0, _⟩ => show win0_3.index t (0 : Fin 2) * 2000 + 1 * (j 0).val = t.val * 2000 + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) ((cfg0.win 3).xinj (grid0.coords t) j)
    = Gcn.linG (xarr V c) (warr V c) (barr V c) (((cfg0.win 3).blk t).view.emb j)
  rw [hx, hemb, payload_apply, bblock_apply]
  show _ = (∑ k : Fin 128, xarr V c (ix2 (⟨t.val * 2000 + (j 0).val, hr⟩ : Fin 100000) k)
      * warr V c (ix2 k (⟨(j 1).val, hj1⟩ : Fin 128))) + barr V c (ix2 (0 : Fin 1) (⟨(j 1).val, hj1⟩ : Fin 128))
  refine congrArg (· + barr V c (ix2 (0 : Fin 1) (⟨(j 1).val, hj1⟩ : Fin 128))) (Finset.sum_congr rfl fun k _ => ?_)
  rw [xblock_apply V c t ⟨(j 0).val, hj0⟩ k ⟨t.val * 2000 + (j 0).val, hr⟩ rfl, wblock_apply]

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v6).slice (win0_3.rect t)).set ↔ _
  rw [View.set_slice_whole, Rect.mem_set_unit]
  exact Iff.rfl

/-- The 50 blocks of 2000 rows cover the 100000 rows: row `r` is in the block of point `r / 2000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 2000 < cfg0.N := lt_of_lt_of_eq (by omega : (i 0).val / 2000 < 50) N_0.symm
  refine ⟨⟨(i 0).val / 2000, hN⟩, flush0_3 _, ?_⟩
  rw [mem_blk]
  obtain ⟨-, -, -, -, -, -, e0, e1⟩ := blockIndex ⟨(i 0).val / 2000, hN⟩
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hN⟩ (1 : Fin 2) * 128 ≤ (i 1).val
      ∧ (i 1).val < win0_3.index ⟨(i 0).val / 2000, hN⟩ (1 : Fin 2) * 128 + 128
    rw [e1]; omega

theorem final0 (c : Dev nD) :
    (dat0 (F := Ideal) V c).arrAt 3 cfg0.N
      = Gcn.linG (V c (Pipeline.arrRef spec0 0)) (V c (Pipeline.arrRef spec0 1)) (V c (Pipeline.arrRef spec0 2)) :=
  (dat0 (F := Ideal) V c).arrAt_eq_of_cover 3 (Gcn.linG (xarr V c) (warr V c) (barr V c))
    (fun t _ => flushed_eq V c t) covered

end Cert.KernelIdeal.RegionValue

end
-- ==== Proof.RegionNorm.lean ====
/-
  Regions 1 and 2 of the tiled pipeline: LayerNorm over the 128 features of each row, scale, bias, and the maximum with
  zero (region 2 first adds the residual array entry by entry). Each grid point handles one block of 2000 consecutive
  rows and all 128 features; a row's mean and variance only involve that row, so a block of the output is the same block
  of the whole-array function `Gcn.lnG`. First the body's stored value is read at one entry (the lane sums become sums
  over the row's 128 features; the column of row statistics and the scale and bias rows are read where the broadcasts
  put them); then block `t` is placed at rows `2000 t … 2000 t + 1999` of the array, and the 50 blocks cover it.
-/
import proofs.«424276_j34720515620917_2_alg».proof.Proof.Gen.KernelIdeal.Frame
import proofs.«424276_j34720515620917_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.Pipeline (Dat Cfg Window)
open Idealize.ShloMosaic.ValueIdx

namespace Norm

/-! ## The body's stored value at one entry -/

section Entry

variable {α : Type}

/-- A vector of `a` entries laid out as a column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a 2000 × 128 block, at row `p`. -/
theorem laneSum_apply (v : FVec Ideal S2000x128 .f32) (h : S2000x128.Reduces [1] S2000) (hφ : FTy.f32 = FTy.f32 ∨ FTy.f32 = FTy.bf16)
    (hacc : @Eq (BitVec FTy.f32.bits) 0x00000000#32 0x00000000#32) (p : Fin 2000) :
    multiReduction .add [1] S2000 v 0x00000000#32 h hφ hacc (ix1 p) = ∑ k : Fin 128, v (ix2 p k) := by
  refine (Ideal.multiReduction_add_single v _ h hφ hacc (ix1 p)).trans ?_
  show ∑ k : Fin 128, v (h.lift (ix1 p) k) = ∑ k : Fin 128, v (ix2 p k)
  refine Finset.sum_congr rfl fun k _ => congrArg v ?_
  funext c; apply Fin.ext
  match c with
  | ⟨0, _⟩ => rfl
  | ⟨1, _⟩ => rfl

/-- The inverse square root of a vector, entry by entry. -/
theorem rsqrt_apply {s : Shape} {φ : FTy} (a : FVec Ideal s φ) (i : s.Idx) : rsqrt a i = Ideal.rsqrt (a i) := rfl

/-- THE PLAIN LAYER-NORM BLOCK AT AN ENTRY. When row `p` of the block `x0` is row `r` of the array `h`, and the
    scale and bias rows agree with `sa`, `ba` at feature `q`, entry `(p, q)` of what the body stores is the
    normalized, scaled, shifted and clamped entry `(r, q)` of `h`: the two lane sums of the body are the sums over the
    128 features of that one row, and every other operation acts entry by entry or repeats a row's (a column's) value. -/
theorem k1_pay1_eq_lnAt (x0 : Vec Ideal S2000x128 .f32) (s b : Vec Ideal S1x128 .f32)
    (h : Gcn.SN.Idx → EReal) (sa ba : Gcn.SR.Idx → EReal) (p : Fin 2000) (q : Fin 128) (r : Fin 100000)
    (hx : ∀ k : Fin 128, x0 (ix2 p k) = h (ix2 r k))
    (hs : s (ix2 (0 : Fin 1) q) = sa (ix2 (0 : Fin 1) q)) (hb : b (ix2 (0 : Fin 1) q) = ba (ix2 (0 : Fin 1) q)) :
    k1_pay1 (F := Ideal) x0 s b (ix2 p q) = Gcn.lnAt h sa ba r q := by
  unfold k1_pay1
  simp only [shapeCast_self]
  simp only [maximumf_apply, addf_apply, mulf_apply, subf_apply, divf_apply, rsqrt_apply, broadcast_apply,
    broadcastTo_a1_ab_apply, broadcastTo_1b_ab_apply, shapeCast_a_a1_apply, laneSum_apply _ reduces_S2000x128_S2000]
  simp only [hx, hs, hb]
  rfl

/-- THE RESIDUAL LAYER-NORM BLOCK AT AN ENTRY: the same, of the entrywise sum of the two blocks. -/
theorem k2_pay1_eq_lnAt (x0 x1 : Vec Ideal S2000x128 .f32) (s b : Vec Ideal S1x128 .f32)
    (h g : Gcn.SN.Idx → EReal) (sa ba : Gcn.SR.Idx → EReal) (p : Fin 2000) (q : Fin 128) (r : Fin 100000)
    (hx0 : ∀ k : Fin 128, x0 (ix2 p k) = h (ix2 r k)) (hx1 : ∀ k : Fin 128, x1 (ix2 p k) = g (ix2 r k))
    (hs : s (ix2 (0 : Fin 1) q) = sa (ix2 (0 : Fin 1) q)) (hb : b (ix2 (0 : Fin 1) q) = ba (ix2 (0 : Fin 1) q)) :
    k2_pay1 (F := Ideal) x0 x1 s b (ix2 p q) = Gcn.lnAt (Gcn.addG h g) sa ba r q := by
  unfold k2_pay1
  simp only [shapeCast_self]
  simp only [maximumf_apply, addf_apply, mulf_apply, subf_apply, divf_apply, rsqrt_apply, broadcast_apply,
    broadcastTo_a1_ab_apply, broadcastTo_1b_ab_apply, shapeCast_a_a1_apply, laneSum_apply _ reduces_S2000x128_S2000]
  simp only [hx0, hx1, hs, hb]
  rfl

end Entry

/-! ## From blocks to the array -/

variable (V : (c : Dev nD) → (b : Ref sig .tc) → Buf (Elt Ideal) ((c : Thread nD τ).loc b))

/-- The zero offsets of a whole-block access, however spelt. -/
theorem zeroOffsets : (![0, 0] : Fin 2 → Nat) = fun _ => 0 := funext fun a => by fin_cases a <;> rfl

/-! ### Region 1 -/

/-- The activations, the scale row and the bias row as region 1 finds them. -/
abbrev hArr1 (c : Dev nD) : Gcn.SN.Idx → EReal := V c (Pipeline.arrRef spec1 0)
abbrev sArr1 (c : Dev nD) : Gcn.SR.Idx → EReal := V c (Pipeline.arrRef spec1 1)
abbrev bArr1 (c : Dev nD) : Gcn.SR.Idx → EReal := V c (Pipeline.arrRef spec1 2)

/-- Where the blocks sit: at point `t` the activation and output windows are at block row `t`, and the scale and bias
    windows at their one block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the LayerNorm of the arrays the region finds. -/
theorem flushed1_eq (c : Dev nD) (t : Fin cfg1.N) :
    (dat1 (F := Ideal) V c).flushed 3 t
      = ((cfg1.win 3).blk t).view.read (Elt Ideal) (Gcn.lnG (hArr1 V c) (sArr1 V c) (bArr1 V c)) := by
  show (cfg1.win 3).cut (grid1.coords t) ((dat1 V c).after 3 t) = _
  rw [after1_3]
  unfold out1_3
  rw [View.canon_unit_zero zeroOffsets]
  simp only [View.ld_unit_zero (S := S2000x128) zeroOffsets, View.ld_unit_zero (S := S1x128) zeroOffsets]
  obtain ⟨e00, e01, e10, e11, e20, e21, e30, e31⟩ := blockIndex1 t
  have ht : t.val < 50 := Nat.lt_of_lt_of_eq t.isLt N_1
  refine funext fun (j : S2000x128.Idx) => ?_
  obtain ⟨p, q, rfl⟩ : ∃ (p : Fin 2000) (q : Fin 128), j = ix2 p q := ⟨j 0, j 1, eq_ix2 j⟩
  have hr : 2000 * t.val + p.val < 100000 := by have := p.isLt; omega
  -- the output block's entry (p, q) is the array's entry (2000 t + p, q)
  have he : ((cfg1.win 3).blk t).view.emb (ix2 p q) = (ix2 (⟨2000 * t.val + p.val, hr⟩ : Fin 100000) q : Gcn.SN.Idx) := by
    funext a; apply Fin.ext
    match a with
    | ⟨0, _⟩ => show win1_3.index t (0 : Fin 2) * 2000 + 1 * p.val = 2000 * t.val + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
      = Gcn.lnG (hArr1 V c) (sArr1 V c) (bArr1 V c) (((cfg1.win 3).blk t).view.emb (ix2 p q))
  rw [he]
  refine k1_pay1_eq_lnAt (iblk1 V c 0 t) (iblk1 V c 1 t) (iblk1 V c 2 t) (hArr1 V c) (sArr1 V c) (bArr1 V c) p q
    ⟨2000 * t.val + p.val, hr⟩ (fun k => ?_) ?_ ?_
  · -- row p of the activation block is row 2000 t + p of the array
    show hArr1 V c (((cfg1.win 0).blk t).view.emb (ix2 p k)) = hArr1 V c (ix2 (⟨2000 * t.val + p.val, hr⟩ : Fin 100000) k)
    refine congrArg (hArr1 V c) ?_
    funext a; apply Fin.ext
    match a with
    | ⟨0, _⟩ => show win1_0.index t (0 : Fin 2) * 2000 + 1 * p.val = 2000 * t.val + p.val; omega
    | ⟨1, _⟩ => show win1_0.index t (1 : Fin 2) * 128 + 1 * k.val = k.val; omega
  · -- the scale window's one block is the whole row
    show sArr1 V c (((cfg1.win 1).blk t).view.emb (ix2 (0 : Fin 1) q)) = sArr1 V c (ix2 (0 : Fin 1) q)
    refine congrArg (sArr1 V c) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  · -- and so is the bias window's
    show bArr1 V c (((cfg1.win 2).blk t).view.emb (ix2 (0 : Fin 1) q)) = bArr1 V c (ix2 (0 : Fin 1) q)
    refine congrArg (bArr1 V c) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega

/-- An entry of the array is in point `t`'s output block iff each coordinate is in the block's range on its axis. -/
theorem mem_outBlock1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v9).slice (win1_3.rect t)).set ↔ _
  rw [View.set_slice_whole, Rect.mem_set_unit]
  exact Iff.rfl

/-- THE 50 BLOCKS COVER THE ARRAY: row `r` is in the block of point `r / 2000`. -/
theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have htlt : (i 0).val / 2000 < cfg1.N := by rw [hN]; omega
  obtain ⟨-, -, -, -, -, -, e30, e31⟩ := blockIndex1 ⟨(i 0).val / 2000, htlt⟩
  refine ⟨⟨(i 0).val / 2000, htlt⟩, flush1_3 _, ?_⟩
  rw [mem_outBlock1]
  intro a
  match a with
  | ⟨0, _⟩ =>
    show win1_3.index ⟨(i 0).val / 2000, htlt⟩ (0 : Fin 2) * 2000 ≤ (i 0).val
      ∧ (i 0).val < win1_3.index ⟨(i 0).val / 2000, htlt⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, htlt⟩ (1 : Fin 2) * 128 ≤ (i 1).val
      ∧ (i 1).val < win1_3.index ⟨(i 0).val / 2000, htlt⟩ (1 : Fin 2) * 128 + 128
    rw [e31]; omega

/-! ### Region 2 -/

/-- The activations, the residual, the scale row and the bias row as region 2 finds them. -/
abbrev hArr2 (c : Dev nD) : Gcn.SN.Idx → EReal := V c (Pipeline.arrRef spec2 0)
abbrev gArr2 (c : Dev nD) : Gcn.SN.Idx → EReal := V c (Pipeline.arrRef spec2 1)
abbrev sArr2 (c : Dev nD) : Gcn.SR.Idx → EReal := V c (Pipeline.arrRef spec2 2)
abbrev bArr2 (c : Dev nD) : Gcn.SR.Idx → EReal := V c (Pipeline.arrRef spec2 3)

/-- Where the blocks sit: at point `t` the activation, residual and output windows are at block row `t`, and the scale
    and bias windows at their one block. -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of the LayerNorm of the sum of the two arrays the region finds. -/
theorem flushed2_eq (c : Dev nD) (t : Fin cfg2.N) :
    (dat2 (F := Ideal) V c).flushed 4 t
      = ((cfg2.win 4).blk t).view.read (Elt Ideal)
          (Gcn.lnG (Gcn.addG (hArr2 V c) (gArr2 V c)) (sArr2 V c) (bArr2 V c)) := by
  show (cfg2.win 4).cut (grid2.coords t) ((dat2 V c).after 4 t) = _
  rw [after2_4]
  unfold out2_4
  rw [View.canon_unit_zero zeroOffsets]
  simp only [View.ld_unit_zero (S := S2000x128) zeroOffsets, View.ld_unit_zero (S := S1x128) zeroOffsets]
  obtain ⟨e00, e01, e10, e11, e20, e21, e30, e31, e40, e41⟩ := blockIndex2 t
  have ht : t.val < 50 := Nat.lt_of_lt_of_eq t.isLt N_2
  refine funext fun (j : S2000x128.Idx) => ?_
  obtain ⟨p, q, rfl⟩ : ∃ (p : Fin 2000) (q : Fin 128), j = ix2 p q := ⟨j 0, j 1, eq_ix2 j⟩
  have hr : 2000 * t.val + p.val < 100000 := by have := p.isLt; omega
  -- the output block's entry (p, q) is the array's entry (2000 t + p, q)
  have he : ((cfg2.win 4).blk t).view.emb (ix2 p q) = (ix2 (⟨2000 * t.val + p.val, hr⟩ : Fin 100000) q : Gcn.SN.Idx) := by
    funext a; apply Fin.ext
    match a with
    | ⟨0, _⟩ => show win2_4.index t (0 : Fin 2) * 2000 + 1 * p.val = 2000 * t.val + p.val; omega
    | ⟨1, _⟩ => show win2_4.index t (1 : Fin 2) * 128 + 1 * q.val = q.val; omega
  show k2_pay1 (F := Ideal) (iblk2 V c 0 t) (iblk2 V c 1 t) (iblk2 V c 2 t) (iblk2 V c 3 t) (ix2 p q)
      = Gcn.lnG (Gcn.addG (hArr2 V c) (gArr2 V c)) (sArr2 V c) (bArr2 V c) (((cfg2.win 4).blk t).view.emb (ix2 p q))
  rw [he]
  refine k2_pay1_eq_lnAt (iblk2 V c 0 t) (iblk2 V c 1 t) (iblk2 V c 2 t) (iblk2 V c 3 t)
    (hArr2 V c) (gArr2 V c) (sArr2 V c) (bArr2 V c) p q ⟨2000 * t.val + p.val, hr⟩ (fun k => ?_) (fun k => ?_) ?_ ?_
  · -- row p of the activation block is row 2000 t + p of the array
    show hArr2 V c (((cfg2.win 0).blk t).view.emb (ix2 p k)) = hArr2 V c (ix2 (⟨2000 * t.val + p.val, hr⟩ : Fin 100000) k)
    refine congrArg (hArr2 V c) ?_
    funext a; apply Fin.ext
    match a with
    | ⟨0, _⟩ => show win2_0.index t (0 : Fin 2) * 2000 + 1 * p.val = 2000 * t.val + p.val; omega
    | ⟨1, _⟩ => show win2_0.index t (1 : Fin 2) * 128 + 1 * k.val = k.val; omega
  · -- and row p of the residual block likewise
    show gArr2 V c (((cfg2.win 1).blk t).view.emb (ix2 p k)) = gArr2 V c (ix2 (⟨2000 * t.val + p.val, hr⟩ : Fin 100000) k)
    refine congrArg (gArr2 V c) ?_
    funext a; apply Fin.ext
    match a with
    | ⟨0, _⟩ => show win2_1.index t (0 : Fin 2) * 2000 + 1 * p.val = 2000 * t.val + p.val; omega
    | ⟨1, _⟩ => show win2_1.index t (1 : Fin 2) * 128 + 1 * k.val = k.val; omega
  · -- the scale window's one block is the whole row
    show sArr2 V c (((cfg2.win 2).blk t).view.emb (ix2 (0 : Fin 1) q)) = sArr2 V c (ix2 (0 : Fin 1) q)
    refine congrArg (sArr2 V c) ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega
  · -- and so is the bias window's
    show bArr2 V c (((cfg2.win 3).blk t).view.emb (ix2 (0 : Fin 1) q)) = bArr2 V c (ix2 (0 : Fin 1) q)
    refine congrArg (bArr2 V c) ?_
    funext a; apply Fin.ext
    match a with
    | ⟨0, _⟩ => show win2_3.index t (0 : Fin 2) * 1 + 1 * 0 = 0; omega
    | ⟨1, _⟩ => show win2_3.index t (1 : Fin 2) * 128 + 1 * q.val = q.val; omega

/-- An entry of the array is in point `t`'s output block iff each coordinate is in the block's range on its axis. -/
theorem mem_outBlock2 (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v19).slice (win2_4.rect t)).set ↔ _
  rw [View.set_slice_whole, Rect.mem_set_unit]
  exact Iff.rfl

/-- THE 50 BLOCKS COVER THE ARRAY: row `r` is in the block of point `r / 2000`. -/
theorem covered2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  have htlt : (i 0).val / 2000 < cfg2.N := by rw [hN]; omega
  obtain ⟨-, -, -, -, -, -, -, -, e40, e41⟩ := blockIndex2 ⟨(i 0).val / 2000, htlt⟩
  refine ⟨⟨(i 0).val / 2000, htlt⟩, flush2_4 _, ?_⟩
  rw [mem_outBlock2]
  intro a
  match a with
  | ⟨0, _⟩ =>
    show win2_4.index ⟨(i 0).val / 2000, htlt⟩ (0 : Fin 2) * 2000 ≤ (i 0).val
      ∧ (i 0).val < win2_4.index ⟨(i 0).val / 2000, htlt⟩ (0 : Fin 2) * 2000 + 2000
    rw [e40]; show (i 0).val / 2000 * 2000 ≤ (i 0).val ∧ (i 0).val < (i 0).val / 2000 * 2000 + 2000; omega
  | ⟨1, _⟩ =>
    show win2_4.index ⟨(i 0).val / 2000, htlt⟩ (1 : Fin 2) * 128 ≤ (i 1).val
      ∧ (i 1).val < win2_4.index ⟨(i 0).val / 2000, htlt⟩ (1 : Fin 2) * 128 + 128
    rw [e41]; omega

end Norm

/-! ## The two regions' output arrays -/

open Norm

variable (V : (c : Dev nD) → (b : Ref sig .tc) → Buf (Elt Ideal) ((c : Thread nD τ).loc b))

/-- REGION 1 leaves in its output array the LayerNorm (scaled, shifted, clamped at zero) of its input array. -/
theorem final1 (c : Dev nD) :
    (dat1 (F := Ideal) V c).arrAt 3 cfg1.N
      = Gcn.lnG (V c (Pipeline.arrRef spec1 0)) (V c (Pipeline.arrRef spec1 1)) (V c (Pipeline.arrRef spec1 2)) :=
  (dat1 (F := Ideal) V c).arrAt_eq_of_cover 3 (Gcn.lnG (hArr1 V c) (sArr1 V c) (bArr1 V c))
    (fun t _ => flushed1_eq V c t) covered1

/-- REGION 2 leaves in its output array the same of the entrywise sum of its two input arrays. -/
theorem final2 (c : Dev nD) :
    (dat2 (F := Ideal) V c).arrAt 4 cfg2.N
      = Gcn.lnG (Gcn.addG (V c (Pipeline.arrRef spec2 0)) (V c (Pipeline.arrRef spec2 1)))
          (V c (Pipeline.arrRef spec2 2)) (V c (Pipeline.arrRef spec2 3)) :=
  (dat2 (F := Ideal) V c).arrAt_eq_of_cover 4
    (Gcn.lnG (Gcn.addG (hArr2 V c) (gArr2 V c)) (sArr2 V c) (bArr2 V c))
    (fun t _ => flushed2_eq V c t) covered2

end Cert.KernelIdeal.RegionValue

end
-- ==== Proof.KernelValue.lean ====
/-
  What the idealized kernel's program leaves in its result array, as ONE function of its seven argument arrays: the
  fold through the host stretches and the three tiled regions, boundary by boundary. Each region's output array is the
  specification's function of its input arrays (the linear layer; LayerNorm, scale, bias and the maximum with zero); each
  host stretch between them is read operation by operation; a buffer nothing writes keeps its contents. Under the
  precondition the row gather with a fill is the plain gather, so the two message-passing steps are the aggregation
  `agg`: gather the source rows, weight each edge, add into the destination rows.
-/
import proofs.«424276_j34720515620917_2_alg».proof.Proof.Gen.KernelIdeal.Frame
import proofs.«424276_j34720515620917_2_alg».proof.Proof.Spec
import proofs.«424276_j34720515620917_2_alg».proof.Proof.Layout
import proofs.«424276_j34720515620917_2_alg».proof.Proof.Take
import proofs.«424276_j34720515620917_2_alg».proof.Proof.RegionLinear
import proofs.«424276_j34720515620917_2_alg».proof.Proof.RegionNorm
import Idealize.ShloMosaic.Lib.StableHlo.Run

set_option maxRecDepth 16384

noncomputable section

namespace Cert.KernelIdeal.KernelValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

local notation "‹" b "›" => Proc.devRef (τ := τ) Proc.tc b

/-- The destination-node row of the edge list. -/
def dstOf (x1 : IVec S2x1600000 32) : IVec S1600000 32 :=
  shapeCast S1600000 (extractStridedSlice S1x1600000 ![1, 0] x1 Facts₀.slices_S2x1600000_S1x1600000_1_0) Facts₀.shapeCasts_S1x1600000_S1600000

/-- One message-passing step: gather the rows of `h` at the (normalised) source nodes, weight edge `e`'s row by its
    feature, and add the rows into a zero array at the destination nodes. -/
def agg (h : FVec Ideal S100000x128 .f32) (x1 : IVec S2x1600000 32) (x2 : FVec Ideal S1600000 .f32) : FVec Ideal S100000x128 .f32 :=
  Host.scatterAdd Cert.KernelIdeal.scatter_S100000x128_S1600000x1_S1600000x128_1_0_0_1
    (broadcastInDim S100000x128 ![] Facts₀.bcast_S_S100000x128 (constant S_ .f32 0x00000000#32))
    (broadcastInDim S1600000x1 ![0] Facts₀.bcast_S1600000_S1600000x1_0 (dstOf x1))
    (mulf (Host.gather Cert.KernelIdeal.gather_S100000x128_S1600000x1_S1600000x128_1_0_n_n_0_1_1128 h (Take.normIdx (Take.srcOf x1)))
      (broadcastInDim S1600000x128 ![0, 1] Facts₀.bcast_S1600000x1_S1600000x128_0_1
        (broadcastInDim S1600000x1 ![0] Facts₀.bcast_S1600000_S1600000x1_0 x2)))

/-- Weight edge `e`'s gathered row by its feature and add the rows into a zero array at the destination nodes. -/
def aggTail (rows : FVec Ideal S1600000x128 .f32) (d : IVec S1600000 32) (x2 : FVec Ideal S1600000 .f32) : FVec Ideal S100000x128 .f32 :=
  Host.scatterAdd Cert.KernelIdeal.scatter_S100000x128_S1600000x1_S1600000x128_1_0_0_1
    (broadcastInDim S100000x128 ![] Facts₀.bcast_S_S100000x128 (constant S_ .f32 0x00000000#32))
    (broadcastInDim S1600000x1 ![0] Facts₀.bcast_S1600000_S1600000x1_0 d)
    (mulf rows
      (broadcastInDim S1600000x128 ![0, 1] Facts₀.bcast_S1600000x1_S1600000x128_0_1
        (broadcastInDim S1600000x1 ![0] Facts₀.bcast_S1600000_S1600000x1_0 x2)))

/-- The same step with the kernel side's gather-with-fill in the gather's place. -/
def aggFill (h : FVec Ideal S100000x128 .f32) (s : IVec S1600000 32) (d : IVec S1600000 32) (x2 : FVec Ideal S1600000 .f32) : FVec Ideal S100000x128 .f32 :=
  Host.scatterAdd Cert.KernelIdeal.scatter_S100000x128_S1600000x1_S1600000x128_1_0_0_1
    (broadcastInDim S100000x128 ![] Facts₀.bcast_S_S100000x128 (constant S_ .f32 0x00000000#32))
    (broadcastInDim S1600000x1 ![0] Facts₀.bcast_S1600000_S1600000x1_0 d)
    (mulf (Take.takeK h s)
      (broadcastInDim S1600000x128 ![0, 1] Facts₀.bcast_S1600000x1_S1600000x128_0_1
        (broadcastInDim S1600000x1 ![0] Facts₀.bcast_S1600000_S1600000x1_0 x2)))

/-! ## The seven argument arrays on a core, and the stages of the computation over them -/

abbrev a0 (c : Dev nD) : FVec Ideal S100000x128 .f32 := m ((c : Thread nD τ).loc main_arg0)
abbrev a1 (c : Dev nD) : IVec S2x1600000 32 := m ((c : Thread nD τ).loc main_arg1)
abbrev a2 (c : Dev nD) : FVec Ideal S1600000 .f32 := m ((c : Thread nD τ).loc main_arg2)
abbrev a3 (c : Dev nD) : FVec Ideal S128x128 .f32 := m ((c : Thread nD τ).loc main_arg3)
abbrev a4 (c : Dev nD) : FVec Ideal S128 .f32 := m ((c : Thread nD τ).loc main_arg4)
abbrev a5 (c : Dev nD) : FVec Ideal S2x128 .f32 := m ((c : Thread nD τ).loc main_arg5)
abbrev a6 (c : Dev nD) : FVec Ideal S2x128 .f32 := m ((c : Thread nD τ).loc main_arg6)

/-- The linear layer's output. -/
abbrev h0 (c : Dev nD) : FVec Ideal S100000x128 .f32 := Gcn.linG (a0 m c) (Gcn.tr (a3 m c)) (Gcn.rowOf (a4 m c))
/-- The first layer: LayerNorm with the first rows of scale and bias, then the maximum with zero. -/
abbrev h1 (c : Dev nD) : FVec Ideal S100000x128 .f32 := Gcn.lnG (h0 m c) (Gcn.sliceRow 0 (a5 m c)) (Gcn.sliceRow 0 (a6 m c))
/-- The first aggregation, with the gather's fill. -/
abbrev g1 (c : Dev nD) : FVec Ideal S100000x128 .f32 := aggFill (h1 m c) (Take.srcOf (a1 m c)) (dstOf (a1 m c)) (a2 m c)
/-- The second layer, over the residual sum. -/
abbrev h2 (c : Dev nD) : FVec Ideal S100000x128 .f32 := Gcn.lnG (Gcn.addG (g1 m c) (h0 m c)) (Gcn.sliceRow 1 (a5 m c)) (Gcn.sliceRow 1 (a6 m c))
/-- The second aggregation, with the gather's fill: what the program returns. -/
abbrev g2 (c : Dev nD) : FVec Ideal S100000x128 .f32 := aggFill (h2 m c) (Take.srcOf (a1 m c)) (dstOf (a1 m c)) (a2 m c)

/-- A buffer that a host stretch does not write keeps what it held. -/
local macro "carry_host " ops:ident " then " h:term : tactic =>
  `(tactic| (refine Eq.trans ?_ $h; show StableHlo.after $ops _ _ = _
             exact StableHlo.after_of_forall_not_mem _ _ (List.forall_iff_forall_mem.mp (by
               simp only [$ops:ident, List.Forall, StableHlo.nullary_writes, StableHlo.unary_writes, StableHlo.binary_writes,
                 StableHlo.ternary_writes, StableHlo.quaternary_writes, StableHlo.reshape_writes, StableHlo.binaryIndexed_writes,
                 Finset.mem_singleton]
               repeat' apply And.intro
               all_goals exact StableHlo.devRef_ne_of_ne (by decide)))))

/-! ## What each later host stretch writes, from ANY contents `V` it starts from -/

/-- Contents written at a typed reference of a called function and read back are the contents: the transport along
    the reference's type, there and back. -/
theorem ofBuf_toBuf {T : BufTy} (x : StableHlo.TRef sig T) (v : T.Contents (Elt Ideal)) : x.ofBuf (x.toBuf v) = v := by
  obtain ⟨r, h, hd, hs⟩ := x
  subst h
  rfl

section Stretches
variable (V : Valuation τ sig (Elt Ideal))

/-- At a literal reference the transport is the identity. -/
theorem ofBuf_v9 : (StableHlo.TRef.of (T := ⟨S100000x128, .f32⟩) main_v9).ofBuf (V ‹main_v9›) = (V ‹main_v9› : FVec Ideal S100000x128 .f32) := rfl
theorem ofBuf_v19 : (StableHlo.TRef.of (T := ⟨S100000x128, .f32⟩) main_v19).ofBuf (V ‹main_v19›) = (V ‹main_v19› : FVec Ideal S100000x128 .f32) := rfl
theorem ofBuf_v1 : (StableHlo.TRef.of (T := ⟨S1600000, .i32⟩) main_v1).ofBuf (V ‹main_v1›) = (V ‹main_v1› : IVec S1600000 32) := rfl
theorem toBuf_v10 (v : (⟨S1600000x128, .f32⟩ : BufTy).Contents (Elt Ideal)) :
    ((StableHlo.TRef.of (T := ⟨S1600000x128, .f32⟩) main_v10).toBuf (Val := Elt Ideal) v : (⟨S1600000x128, .f32⟩ : BufTy).Contents (Elt Ideal)) = v := rfl
theorem toBuf_v20 (v : (⟨S1600000x128, .f32⟩ : BufTy).Contents (Elt Ideal)) :
    ((StableHlo.TRef.of (T := ⟨S1600000x128, .f32⟩) main_v20).toBuf (Val := Elt Ideal) v : (⟨S1600000x128, .f32⟩ : BufTy).Contents (Elt Ideal)) = v := rfl

/-- The first gather's stretch: the rows of the first layer's output at the source nodes, with the fill. -/
theorem ops2_v10 : StableHlo.after hostOps2 V ‹main_v10› = Take.takeK (V ‹main_v9›) (V ‹main_v1›) := by
  after_results_simp
  simp only [ofBuf_toBuf, ofBuf_v9, ofBuf_v1, toBuf_v10]
  rfl
/-- The first aggregation's stretch. -/
theorem ops21_v16 : StableHlo.after hostOps2_1 V ‹main_v16› = aggTail (V ‹main_v10›) (V ‹main_v3›) (V ‹main_arg2›) := by
  after_results_simp
  rfl
theorem ops21_v17 : StableHlo.after hostOps2_1 V ‹main_v17›
    = extractStridedSlice S1x128 ![1, 0] (V ‹main_arg5›) Facts₀.slices_S2x128_S1x128_1_0 := by
  after_results_simp
theorem ops21_v18 : StableHlo.after hostOps2_1 V ‹main_v18›
    = extractStridedSlice S1x128 ![1, 0] (V ‹main_arg6›) Facts₀.slices_S2x128_S1x128_1_0 := by
  after_results_simp
/-- The second gather's stretch. -/
theorem ops3_v20 : StableHlo.after hostOps3 V ‹main_v20› = Take.takeK (V ‹main_v19›) (V ‹main_v1›) := by
  after_results_simp
  simp only [ofBuf_toBuf, ofBuf_v19, ofBuf_v1, toBuf_v20]
  rfl
/-- The second aggregation's stretch. -/
theorem ops31_v26 : StableHlo.after hostOps3_1 V ‹main_v26› = aggTail (V ‹main_v20›) (V ‹main_v3›) (V ‹main_arg2›) := by
  after_results_simp
  rfl

end Stretches

/-! ## After the first host stretch: the two rows of the edge list, the transposed weight, the bias as a row -/

theorem W1_v1 (c : Dev nD) : W1 m ρ c ‹main_v1› = Take.srcOf (a1 m c) := by
  show StableHlo.after hostOps0 (W0 m ρ c) ‹main_v1› = _
  after_results <;> rfl
theorem W1_v3 (c : Dev nD) : W1 m ρ c ‹main_v3› = dstOf (a1 m c) := by
  show StableHlo.after hostOps0 (W0 m ρ c) ‹main_v3› = _
  after_results <;> rfl
theorem W1_v4 (c : Dev nD) : W1 m ρ c ‹main_v4› = Gcn.tr (a3 m c) := by
  show StableHlo.after hostOps0 (W0 m ρ c) ‹main_v4› = _
  after_results
  exact Gcn.transpose_tr _ _
theorem W1_v5 (c : Dev nD) : W1 m ρ c ‹main_v5› = Gcn.rowOf (a4 m c) := by
  show StableHlo.after hostOps0 (W0 m ρ c) ‹main_v5› = _
  after_results
  exact Gcn.shapeCast_rowOf _ _
theorem W1_arg0 (c : Dev nD) : W1 m ρ c ‹main_arg0› = a0 m c := by
  show StableHlo.after hostOps0 (W0 m ρ c) ‹main_arg0› = _
  after_results <;> rfl
theorem W1_arg2 (c : Dev nD) : W1 m ρ c ‹main_arg2› = a2 m c := by
  show StableHlo.after hostOps0 (W0 m ρ c) ‹main_arg2› = _
  after_results <;> rfl
theorem W1_arg5 (c : Dev nD) : W1 m ρ c ‹main_arg5› = a5 m c := by
  show StableHlo.after hostOps0 (W0 m ρ c) ‹main_arg5› = _
  after_results <;> rfl
theorem W1_arg6 (c : Dev nD) : W1 m ρ c ‹main_arg6› = a6 m c := by
  show StableHlo.after hostOps0 (W0 m ρ c) ‹main_arg6› = _
  after_results <;> rfl

/-! ## After region 0: the linear layer's output; everything else as it was -/

theorem W2_v6 (c : Dev nD) : W2 m ρ c ‹main_v6› = h0 m c := by
  refine (W2_arr m ρ c 3).trans ?_
  rw [RegionValue.final0 (V1 m ρ) c]
  show Gcn.linG (W1 m ρ c ‹main_arg0›) (W1 m ρ c ‹main_v4›) (W1 m ρ c ‹main_v5›) = _
  rw [W1_arg0, W1_v4, W1_v5]
theorem W2_v1 (c : Dev nD) : W2 m ρ c ‹main_v1› = Take.srcOf (a1 m c) :=
  (W2_of_ne m ρ c main_v1 (by decide)).trans (W1_v1 m ρ c)
theorem W2_v3 (c : Dev nD) : W2 m ρ c ‹main_v3› = dstOf (a1 m c) :=
  (W2_of_ne m ρ c main_v3 (by decide)).trans (W1_v3 m ρ c)
theorem W2_arg2 (c : Dev nD) : W2 m ρ c ‹main_arg2› = a2 m c :=
  (W2_of_ne m ρ c main_arg2 (by decide)).trans (W1_arg2 m ρ c)
theorem W2_arg5 (c : Dev nD) : W2 m ρ c ‹main_arg5› = a5 m c :=
  (W2_of_ne m ρ c main_arg5 (by decide)).trans (W1_arg5 m ρ c)
theorem W2_arg6 (c : Dev nD) : W2 m ρ c ‹main_arg6› = a6 m c :=
  (W2_of_ne m ρ c main_arg6 (by decide)).trans (W1_arg6 m ρ c)

/-! ## After the second host stretch: the first rows of scale and bias -/

theorem W3_v7 (c : Dev nD) : W3 m ρ c ‹main_v7› = Gcn.sliceRow 0 (a5 m c) := by
  show StableHlo.after hostOps1 (W2 m ρ c) ‹main_v7› = _
  after_results
  rw [W2_arg5]
  exact Gcn.slice_row0 _ _
theorem W3_v8 (c : Dev nD) : W3 m ρ c ‹main_v8› = Gcn.sliceRow 0 (a6 m c) := by
  show StableHlo.after hostOps1 (W2 m ρ c) ‹main_v8› = _
  after_results
  rw [W2_arg6]
  exact Gcn.slice_row0 _ _
theorem W3_v6 (c : Dev nD) : W3 m ρ c ‹main_v6› = h0 m c := by carry_host hostOps1 then (W2_v6 m ρ c)
theorem W3_v1 (c : Dev nD) : W3 m ρ c ‹main_v1› = Take.srcOf (a1 m c) := by carry_host hostOps1 then (W2_v1 m ρ c)
theorem W3_v3 (c : Dev nD) : W3 m ρ c ‹main_v3› = dstOf (a1 m c) := by carry_host hostOps1 then (W2_v3 m ρ c)
theorem W3_arg2 (c : Dev nD) : W3 m ρ c ‹main_arg2› = a2 m c := by carry_host hostOps1 then (W2_arg2 m ρ c)
theorem W3_arg5 (c : Dev nD) : W3 m ρ c ‹main_arg5› = a5 m c := by carry_host hostOps1 then (W2_arg5 m ρ c)
theorem W3_arg6 (c : Dev nD) : W3 m ρ c ‹main_arg6› = a6 m c := by carry_host hostOps1 then (W2_arg6 m ρ c)

/-! ## After region 1: the first layer's output -/

theorem W4_v9 (c : Dev nD) : W4 m ρ c ‹main_v9› = h1 m c := by
  refine (W4_arr m ρ c 3).trans ?_
  rw [RegionValue.final1 (V3 m ρ) c]
  show Gcn.lnG (W3 m ρ c ‹main_v6›) (W3 m ρ c ‹main_v7›) (W3 m ρ c ‹main_v8›) = _
  rw [W3_v6, W3_v7, W3_v8]
/-- The linear layer's output is region 1's input array: the region reads it and leaves it. -/
theorem W4_v6 (c : Dev nD) : W4 m ρ c ‹main_v6› = h0 m c :=
  (W4_arr m ρ c 0).trans ((((dat1 (V3 m ρ) c).arrAt_in 0 rfl _).trans (A_eq1 (V3 m ρ) c 0)).trans (W3_v6 m ρ c))
theorem W4_v1 (c : Dev nD) : W4 m ρ c ‹main_v1› = Take.srcOf (a1 m c) :=
  (W4_of_ne m ρ c main_v1 (by decide)).trans (W3_v1 m ρ c)
theorem W4_v3 (c : Dev nD) : W4 m ρ c ‹main_v3› = dstOf (a1 m c) :=
  (W4_of_ne m ρ c main_v3 (by decide)).trans (W3_v3 m ρ c)
theorem W4_arg2 (c : Dev nD) : W4 m ρ c ‹main_arg2› = a2 m c :=
  (W4_of_ne m ρ c main_arg2 (by decide)).trans (W3_arg2 m ρ c)
theorem W4_arg5 (c : Dev nD) : W4 m ρ c ‹main_arg5› = a5 m c :=
  (W4_of_ne m ρ c main_arg5 (by decide)).trans (W3_arg5 m ρ c)
theorem W4_arg6 (c : Dev nD) : W4 m ρ c ‹main_arg6› = a6 m c :=
  (W4_of_ne m ρ c main_arg6 (by decide)).trans (W3_arg6 m ρ c)

/-! ## After the first gather: the rows at the source nodes, with the fill -/

theorem W5_v10 (c : Dev nD) : W5 m ρ c ‹main_v10› = Take.takeK (h1 m c) (Take.srcOf (a1 m c)) := by
  refine (ops2_v10 (W4 m ρ c)).trans ?_
  rw [W4_v9, W4_v1]
theorem W5_v6 (c : Dev nD) : W5 m ρ c ‹main_v6› = h0 m c := by carry_host hostOps2 then (W4_v6 m ρ c)
theorem W5_v1 (c : Dev nD) : W5 m ρ c ‹main_v1› = Take.srcOf (a1 m c) := by carry_host hostOps2 then (W4_v1 m ρ c)
theorem W5_v3 (c : Dev nD) : W5 m ρ c ‹main_v3› = dstOf (a1 m c) := by carry_host hostOps2 then (W4_v3 m ρ c)
theorem W5_arg2 (c : Dev nD) : W5 m ρ c ‹main_arg2› = a2 m c := by carry_host hostOps2 then (W4_arg2 m ρ c)
theorem W5_arg5 (c : Dev nD) : W5 m ρ c ‹main_arg5› = a5 m c := by carry_host hostOps2 then (W4_arg5 m ρ c)
theorem W5_arg6 (c : Dev nD) : W5 m ρ c ‹main_arg6› = a6 m c := by carry_host hostOps2 then (W4_arg6 m ρ c)

/-! ## After the first aggregation, and the second rows of scale and bias -/

theorem W6_v16 (c : Dev nD) : W6 m ρ c ‹main_v16› = g1 m c := by
  refine (ops21_v16 (W5 m ρ c)).trans ?_
  rw [W5_v10, W5_v3, W5_arg2]
  rfl
theorem W6_v17 (c : Dev nD) : W6 m ρ c ‹main_v17› = Gcn.sliceRow 1 (a5 m c) := by
  refine (ops21_v17 (W5 m ρ c)).trans ?_
  rw [W5_arg5]
  exact Gcn.slice_row1 _ _
theorem W6_v18 (c : Dev nD) : W6 m ρ c ‹main_v18› = Gcn.sliceRow 1 (a6 m c) := by
  refine (ops21_v18 (W5 m ρ c)).trans ?_
  rw [W5_arg6]
  exact Gcn.slice_row1 _ _
theorem W6_v6 (c : Dev nD) : W6 m ρ c ‹main_v6› = h0 m c := by carry_host hostOps2_1 then (W5_v6 m ρ c)
theorem W6_v1 (c : Dev nD) : W6 m ρ c ‹main_v1› = Take.srcOf (a1 m c) := by carry_host hostOps2_1 then (W5_v1 m ρ c)
theorem W6_v3 (c : Dev nD) : W6 m ρ c ‹main_v3› = dstOf (a1 m c) := by carry_host hostOps2_1 then (W5_v3 m ρ c)
theorem W6_arg2 (c : Dev nD) : W6 m ρ c ‹main_arg2› = a2 m c := by carry_host hostOps2_1 then (W5_arg2 m ρ c)

/-! ## After region 2: the second layer's output, over the residual sum -/

theorem W7_v19 (c : Dev nD) : W7 m ρ c ‹main_v19› = h2 m c := by
  refine (W7_arr m ρ c 4).trans ?_
  rw [RegionValue.final2 (V6 m ρ) c]
  show Gcn.lnG (Gcn.addG (W6 m ρ c ‹main_v16›) (W6 m ρ c ‹main_v6›)) (W6 m ρ c ‹main_v17›) (W6 m ρ c ‹main_v18›) = _
  rw [W6_v16, W6_v6, W6_v17, W6_v18]
theorem W7_v1 (c : Dev nD) : W7 m ρ c ‹main_v1› = Take.srcOf (a1 m c) :=
  (W7_of_ne m ρ c main_v1 (by decide)).trans (W6_v1 m ρ c)
theorem W7_v3 (c : Dev nD) : W7 m ρ c ‹main_v3› = dstOf (a1 m c) :=
  (W7_of_ne m ρ c main_v3 (by decide)).trans (W6_v3 m ρ c)
theorem W7_arg2 (c : Dev nD) : W7 m ρ c ‹main_arg2› = a2 m c :=
  (W7_of_ne m ρ c main_arg2 (by decide)).trans (W6_arg2 m ρ c)

/-! ## After the second gather and the second aggregation: the result -/

theorem W8_v20 (c : Dev nD) : W8 m ρ c ‹main_v20› = Take.takeK (h2 m c) (Take.srcOf (a1 m c)) := by
  refine (ops3_v20 (W7 m ρ c)).trans ?_
  rw [W7_v19, W7_v1]
theorem W8_v3 (c : Dev nD) : W8 m ρ c ‹main_v3› = dstOf (a1 m c) := by carry_host hostOps3 then (W7_v3 m ρ c)
theorem W8_arg2 (c : Dev nD) : W8 m ρ c ‹main_arg2› = a2 m c := by carry_host hostOps3 then (W7_arg2 m ρ c)

/-- The result array after the run is the second aggregation (with the gather's fill). -/
theorem W9_v26 (c : Dev nD) : W9 m ρ c ‹main_v26› = g2 m c := by
  refine (ops31_v26 (W8 m ρ c)).trans ?_
  rw [W8_v20, W8_v3, W8_arg2]
  rfl

/-! ## Under the precondition the fill never applies -/

/-- Where every source node number is in range, the aggregation with the gather's fill is the aggregation. -/
theorem aggFill_eq (h : FVec Ideal S100000x128 .f32) (c : Dev nD)
    (hpre : Cert.Pre_finite_inputs.fn (F := Ideal) (a0 m c) (a1 m c) (a2 m c) (a3 m c) (a4 m c) (a5 m c) (a6 m c) = fun _ => 1#1) :
    aggFill h (Take.srcOf (a1 m c)) (dstOf (a1 m c)) (a2 m c) = agg h (a1 m c) (a2 m c) := by
  unfold aggFill agg
  rw [Take.take_eq h (a0 m c) (a1 m c) (a2 m c) (a3 m c) (a4 m c) (a5 m c) (a6 m c) hpre]

/-- The result as the composition of the specification's functions and the aggregation. -/
theorem result_eq (c : Dev nD)
    (hpre : Cert.Pre_finite_inputs.fn (F := Ideal) (a0 m c) (a1 m c) (a2 m c) (a3 m c) (a4 m c) (a5 m c) (a6 m c) = fun _ => 1#1) :
    W9 m ρ c ‹main_v26›
      = agg (Gcn.lnG (Gcn.addG (agg (h1 m c) (a1 m c) (a2 m c)) (h0 m c)) (Gcn.sliceRow 1 (a5 m c)) (Gcn.sliceRow 1 (a6 m c))) (a1 m c) (a2 m c) := by
  rw [W9_v26]
  show aggFill (Gcn.lnG (Gcn.addG (aggFill (h1 m c) (Take.srcOf (a1 m c)) (dstOf (a1 m c)) (a2 m c)) (h0 m c)) (Gcn.sliceRow 1 (a5 m c)) (Gcn.sliceRow 1 (a6 m c)))
      (Take.srcOf (a1 m c)) (dstOf (a1 m c)) (a2 m c) = _
  rw [aggFill_eq m _ c hpre, aggFill_eq m _ c hpre]

end Cert.KernelIdeal.KernelValue

end
-- ==== Proof.RefLinear.lean ====
import proofs.«424276_j34720515620917_2_alg».proof.Proof.Gen.ReferenceIdeal.Read
import proofs.«424276_j34720515620917_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Cert.ReferenceIdeal Cert.ReferenceIdeal.Gen Cert.ReferenceIdeal.Read

/-- The composed bias read: the row broadcast [128] → [1,128] → [100000,128] at (p, q) reads the vector at q. -/
theorem bias_idx (p : Fin 100000) (q : Fin 128) :
    idx_main_v6 (idx_main_v7 (ValueIdx.ix2 p q)) = ValueIdx.ix1 q :=
  funext fun a => Fin.ext (by match a with | ⟨0, _⟩ => rfl)

/-- The left operand of the contraction at (p, q), summand k, is entry (p, k) of x. -/
theorem lhs_idx (p : Fin 100000) (q k : Fin 128) :
    lidx_main_v5 (ValueIdx.ix2 p q) k = ValueIdx.ix2 p k :=
  funext fun a => Fin.ext (by match a with | ⟨0, _⟩ => rfl | ⟨1, _⟩ => rfl)

/-- The right operand at (p, q), summand k, is entry (k, q) of the transpose, that is entry (q, k) of the weight. -/
theorem rhs_idx (p : Fin 100000) (q k : Fin 128) :
    idx_main_v4 (ridx_main_v5 (ValueIdx.ix2 p q) k) = ValueIdx.ix2 q k :=
  funext fun a => Fin.ext (by match a with | ⟨0, _⟩ => rfl | ⟨1, _⟩ => rfl)

/-- The reference's linear layer x · wᵀ + b is the spec's linear layer of x, the transposed weight and the bias row:
    at (p, q) both are (∑ k, x (p, k) * w (q, k)) + b q. -/
theorem lin_eq (x0 : FVec Ideal S100000x128 .f32) (x3 : FVec Ideal S128x128 .f32) (x4 : FVec Ideal S128 .f32) :
    val_main_v8 (F := Ideal) x0 x3 x4 = Gcn.linG x0 (Gcn.tr x3) (Gcn.rowOf x4) := by
  funext i
  obtain ⟨p, q, rfl⟩ : ∃ (p : Fin 100000) (q : Fin 128), i = ValueIdx.ix2 p q := ⟨i 0, i 1, ValueIdx.eq_ix2 i⟩
  rw [val_main_v8_apply, val_main_v5_apply, val_main_v7_apply, val_main_v6_apply, bias_idx p q]
  simp only [val_main_v4_apply, lhs_idx, rhs_idx, Gcn.linG, Gcn.linAt, Gcn.tr, Gcn.rowOf, Ideal.addf_def]

end Cert.ReferenceIdeal.RefValue

end
-- ==== Proof.RefNorm.lean ====
import proofs.«424276_j34720515620917_2_alg».proof.Proof.Gen.ReferenceIdeal.Read
import proofs.«424276_j34720515620917_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Cert.ReferenceIdeal Cert.ReferenceIdeal.Gen Cert.ReferenceIdeal.Read
open Idealize.ShloMosaic.ValueIdx

/-! ## Layer 0: the reference's stages over the linear layer's output -/

/-- The mean column of layer 0: the row sum (started at the zero word) divided by the word for 128. -/
theorem mean0 (x0 : FVec Ideal S100000x128 .f32) (x3 : FVec Ideal S128x128 .f32) (x4 : FVec Ideal S128 .f32)
    (p : Fin 100000) (j : Fin 1) :
    val_main_v16 (F := Ideal) x0 x3 x4 (ix2 p j) = Gcn.rowMean (val_main_v8 (F := Ideal) x0 x3 x4) p := by
  rw [val_main_v16_apply, val_main_v14_apply, val_main_v13_apply, val_main_v15_apply, val_main_cst_0_apply,
    val_main_cst_apply]
  generalize val_main_v8 (F := Ideal) x0 x3 x4 = h
  rw [Ideal.hostDivf_def, Ideal.ofBits_def, Ideal.ofBits_def, Ideal.ofBits_zero_f32, zero_add]
  unfold Gcn.rowMean Gcn.c128
  refine congrArg (Ideal.div · _) (Finset.sum_congr rfl fun k _ => congrArg h ?_)
  exact funext fun a => Fin.ext (by match a with | ⟨0, _⟩ => rfl | ⟨1, _⟩ => rfl)

/-- The deviation from the row mean that feeds the variance. -/
theorem devA0 (x0 : FVec Ideal S100000x128 .f32) (x3 : FVec Ideal S128x128 .f32) (x4 : FVec Ideal S128 .f32)
    (p : Fin 100000) (q : Fin 128) :
    val_main_v18 (F := Ideal) x0 x3 x4 (ix2 p q)
      = val_main_v8 (F := Ideal) x0 x3 x4 (ix2 p q) - Gcn.rowMean (val_main_v8 (F := Ideal) x0 x3 x4) p := by
  rw [val_main_v18_apply, val_main_v17_apply, Ideal.subf_def,
    show idx_main_v17 (ix2 p q) = ix2 p (0 : Fin 1) from
      funext fun a => Fin.ext (by match a with | ⟨0, _⟩ => rfl | ⟨1, _⟩ => rfl),
    mean0]

/-- The same deviation, computed a second time for the normalised value. -/
theorem devB0 (x0 : FVec Ideal S100000x128 .f32) (x3 : FVec Ideal S128x128 .f32) (x4 : FVec Ideal S128 .f32)
    (p : Fin 100000) (q : Fin 128) :
    val_main_v25 (F := Ideal) x0 x3 x4 (ix2 p q)
      = val_main_v8 (F := Ideal) x0 x3 x4 (ix2 p q) - Gcn.rowMean (val_main_v8 (F := Ideal) x0 x3 x4) p := by
  rw [val_main_v25_apply, val_main_v24_apply, Ideal.subf_def,
    show idx_main_v24 (ix2 p q) = ix2 p (0 : Fin 1) from
      funext fun a => Fin.ext (by match a with | ⟨0, _⟩ => rfl | ⟨1, _⟩ => rfl),
    mean0]

/-- The squared deviation, as the product the reference computes. -/
theorem sq0 (x0 : FVec Ideal S100000x128 .f32) (x3 : FVec Ideal S128x128 .f32) (x4 : FVec Ideal S128 .f32)
    (p : Fin 100000) (q : Fin 128) :
    val_main_v19 (F := Ideal) x0 x3 x4 (ix2 p q)
      = (val_main_v8 (F := Ideal) x0 x3 x4 (ix2 p q) - Gcn.rowMean (val_main_v8 (F := Ideal) x0 x3 x4) p)
        * (val_main_v8 (F := Ideal) x0 x3 x4 (ix2 p q) - Gcn.rowMean (val_main_v8 (F := Ideal) x0 x3 x4) p) := by
  rw [val_main_v19_apply, Ideal.mulf_def, devA0]

/-- The variance column: the row sum of the squared deviations divided by the word for 128. -/
theorem var0 (x0 : FVec Ideal S100000x128 .f32) (x3 : FVec Ideal S128x128 .f32) (x4 : FVec Ideal S128 .f32)
    (p : Fin 100000) (j : Fin 1) :
    val_main_v23 (F := Ideal) x0 x3 x4 (ix2 p j) = Gcn.rowVar (val_main_v8 (F := Ideal) x0 x3 x4) p := by
  rw [val_main_v23_apply, val_main_v21_apply, val_main_v20_apply, val_main_v22_apply, val_main_cst_2_apply,
    val_main_cst_1_apply, Ideal.hostDivf_def, Ideal.ofBits_def, Ideal.ofBits_def, Ideal.ofBits_zero_f32, zero_add]
  have hk : ∀ k : Fin 128, idx_main_v20 (idx_main_v21 (ix2 p j)) k = ix2 p k := fun k =>
    funext fun a => Fin.ext (by match a with | ⟨0, _⟩ => rfl | ⟨1, _⟩ => rfl)
  simp only [hk, sq0]
  generalize val_main_v8 (F := Ideal) x0 x3 x4 = h
  rfl

/-- The inverse square root of the variance plus the small offset, broadcast along the row. -/
theorem rstd0 (x0 : FVec Ideal S100000x128 .f32) (x3 : FVec Ideal S128x128 .f32) (x4 : FVec Ideal S128 .f32)
    (p : Fin 100000) (q : Fin 128) :
    val_main_v29 (F := Ideal) x0 x3 x4 (ix2 p q)
      = Ideal.rsqrt (Gcn.rowVar (val_main_v8 (F := Ideal) x0 x3 x4) p + Gcn.ceps) := by
  rw [val_main_v29_apply, val_main_v28_apply, val_main_v27_apply, val_main_v26_apply, val_main_cst_3_apply,
    Ideal.hostUnary_rsqrt_def, Ideal.addf_def, Ideal.ofBits_def,
    show idx_main_v29 (ix2 p q) = ix2 p (0 : Fin 1) from
      funext fun a => Fin.ext (by match a with | ⟨0, _⟩ => rfl | ⟨1, _⟩ => rfl),
    var0]
  rfl

/-- The scale row, reshaped to a vector and broadcast back over the nodes, reads row 0 of the scale table. -/
theorem scale0 (x5 : FVec Ideal S2x128 .f32) (p : Fin 100000) (q : Fin 128) :
    val_main_v32 (F := Ideal) x5 (ix2 p q) = Gcn.sliceRow 0 x5 (ix2 0 q) := by
  rw [val_main_v32_apply, val_main_v31_apply, val_main_v10_apply, val_main_v9_apply]
  unfold Gcn.sliceRow
  refine congrArg x5 (funext fun a => Fin.ext ?_)
  match a with
  | ⟨0, _⟩ => rfl
  | ⟨1, _⟩ => exact Nat.mod_eq_of_lt q.isLt

/-- The bias row likewise reads row 0 of the bias table. -/
theorem bias0 (x6 : FVec Ideal S2x128 .f32) (p : Fin 100000) (q : Fin 128) :
    val_main_v35 (F := Ideal) x6 (ix2 p q) = Gcn.sliceRow 0 x6 (ix2 0 q) := by
  rw [val_main_v35_apply, val_main_v34_apply, val_main_v12_apply, val_main_v11_apply]
  unfold Gcn.sliceRow
  refine congrArg x6 (funext fun a => Fin.ext ?_)
  match a with
  | ⟨0, _⟩ => rfl
  | ⟨1, _⟩ => exact Nat.mod_eq_of_lt q.isLt

theorem ln0_eq (x0 : FVec Ideal S100000x128 .f32) (x3 : FVec Ideal S128x128 .f32) (x4 : FVec Ideal S128 .f32)
    (x5 x6 : FVec Ideal S2x128 .f32) :
    val_main_v37 (F := Ideal) x0 x3 x4 x5 x6
      = Gcn.lnG (val_main_v8 (F := Ideal) x0 x3 x4) (Gcn.sliceRow 0 x5) (Gcn.sliceRow 0 x6) := by
  funext i
  obtain ⟨p, q, rfl⟩ : ∃ (p : Fin 100000) (q : Fin 128), i = ix2 p q := ⟨i 0, i 1, eq_ix2 i⟩
  rw [val_main_v37_apply, val_main_v36_apply, val_main_v33_apply, val_main_v30_apply, val_main_call0_v0_apply,
    val_main_call0_cst_apply, devB0, rstd0, scale0, bias0, Ideal.maximumf_def, Ideal.addf_def, Ideal.mulf_def,
    Ideal.mulf_def, Ideal.ofBits_def]
  generalize val_main_v8 (F := Ideal) x0 x3 x4 = h
  rfl

/-! ## Layer 1: the reference's stages over the second layer's input (the aggregated, residual-added array) -/

/-- The mean column of layer 1: the row sum (started at the zero word) divided by the word for 128. -/
theorem mean1 (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (p : Fin 100000) (j : Fin 1) :
    val_main_v59 (F := Ideal) x0 x1 x2 x3 x4 x5 x6 (ix2 p j) = Gcn.rowMean (val_main_v51 (F := Ideal) x0 x1 x2 x3 x4 x5 x6) p := by
  rw [val_main_v59_apply, val_main_v57_apply, val_main_v56_apply, val_main_v58_apply, val_main_cst_7_apply,
    val_main_cst_6_apply]
  generalize val_main_v51 (F := Ideal) x0 x1 x2 x3 x4 x5 x6 = h
  rw [Ideal.hostDivf_def, Ideal.ofBits_def, Ideal.ofBits_def, Ideal.ofBits_zero_f32, zero_add]
  unfold Gcn.rowMean Gcn.c128
  refine congrArg (Ideal.div · _) (Finset.sum_congr rfl fun k _ => congrArg h ?_)
  exact funext fun a => Fin.ext (by match a with | ⟨0, _⟩ => rfl | ⟨1, _⟩ => rfl)

/-- The deviation from the row mean that feeds the variance. -/
theorem devA1 (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (p : Fin 100000) (q : Fin 128) :
    val_main_v61 (F := Ideal) x0 x1 x2 x3 x4 x5 x6 (ix2 p q)
      = val_main_v51 (F := Ideal) x0 x1 x2 x3 x4 x5 x6 (ix2 p q) - Gcn.rowMean (val_main_v51 (F := Ideal) x0 x1 x2 x3 x4 x5 x6) p := by
  rw [val_main_v61_apply, val_main_v60_apply, Ideal.subf_def,
    show idx_main_v60 (ix2 p q) = ix2 p (0 : Fin 1) from
      funext fun a => Fin.ext (by match a with | ⟨0, _⟩ => rfl | ⟨1, _⟩ => rfl),
    mean1]

/-- The same deviation, computed a second time for the normalised value. -/
theorem devB1 (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (p : Fin 100000) (q : Fin 128) :
    val_main_v68 (F := Ideal) x0 x1 x2 x3 x4 x5 x6 (ix2 p q)
      = val_main_v51 (F := Ideal) x0 x1 x2 x3 x4 x5 x6 (ix2 p q) - Gcn.rowMean (val_main_v51 (F := Ideal) x0 x1 x2 x3 x4 x5 x6) p := by
  rw [val_main_v68_apply, val_main_v67_apply, Ideal.subf_def,
    show idx_main_v67 (ix2 p q) = ix2 p (0 : Fin 1) from
      funext fun a => Fin.ext (by match a with | ⟨0, _⟩ => rfl | ⟨1, _⟩ => rfl),
    mean1]

/-- The squared deviation, as the product the reference computes. -/
theorem sq1 (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (p : Fin 100000) (q : Fin 128) :
    val_main_v62 (F := Ideal) x0 x1 x2 x3 x4 x5 x6 (ix2 p q)
      = (val_main_v51 (F := Ideal) x0 x1 x2 x3 x4 x5 x6 (ix2 p q) - Gcn.rowMean (val_main_v51 (F := Ideal) x0 x1 x2 x3 x4 x5 x6) p)
        * (val_main_v51 (F := Ideal) x0 x1 x2 x3 x4 x5 x6 (ix2 p q) - Gcn.rowMean (val_main_v51 (F := Ideal) x0 x1 x2 x3 x4 x5 x6) p) := by
  rw [val_main_v62_apply, Ideal.mulf_def, devA1]

/-- The variance column: the row sum of the squared deviations divided by the word for 128. -/
theorem var1 (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (p : Fin 100000) (j : Fin 1) :
    val_main_v66 (F := Ideal) x0 x1 x2 x3 x4 x5 x6 (ix2 p j) = Gcn.rowVar (val_main_v51 (F := Ideal) x0 x1 x2 x3 x4 x5 x6) p := by
  rw [val_main_v66_apply, val_main_v64_apply, val_main_v63_apply, val_main_v65_apply, val_main_cst_9_apply,
    val_main_cst_8_apply, Ideal.hostDivf_def, Ideal.ofBits_def, Ideal.ofBits_def, Ideal.ofBits_zero_f32, zero_add]
  have hk : ∀ k : Fin 128, idx_main_v63 (idx_main_v64 (ix2 p j)) k = ix2 p k := fun k =>
    funext fun a => Fin.ext (by match a with | ⟨0, _⟩ => rfl | ⟨1, _⟩ => rfl)
  simp only [hk, sq1]
  generalize val_main_v51 (F := Ideal) x0 x1 x2 x3 x4 x5 x6 = h
  rfl

/-- The inverse square root of the variance plus the small offset, broadcast along the row. -/
theorem rstd1 (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32)
    (p : Fin 100000) (q : Fin 128) :
    val_main_v72 (F := Ideal) x0 x1 x2 x3 x4 x5 x6 (ix2 p q)
      = Ideal.rsqrt (Gcn.rowVar (val_main_v51 (F := Ideal) x0 x1 x2 x3 x4 x5 x6) p + Gcn.ceps) := by
  rw [val_main_v72_apply, val_main_v71_apply, val_main_v70_apply, val_main_v69_apply, val_main_cst_10_apply,
    Ideal.hostUnary_rsqrt_def, Ideal.addf_def, Ideal.ofBits_def,
    show idx_main_v72 (ix2 p q) = ix2 p (0 : Fin 1) from
      funext fun a => Fin.ext (by match a with | ⟨0, _⟩ => rfl | ⟨1, _⟩ => rfl),
    var1]
  rfl

/-- The scale row, reshaped to a vector and broadcast back over the nodes, reads row 1 of the scale table. -/
theorem scale1 (x5 : FVec Ideal S2x128 .f32) (p : Fin 100000) (q : Fin 128) :
    val_main_v75 (F := Ideal) x5 (ix2 p q) = Gcn.sliceRow 1 x5 (ix2 0 q) := by
  rw [val_main_v75_apply, val_main_v74_apply, val_main_v53_apply, val_main_v52_apply]
  unfold Gcn.sliceRow
  refine congrArg x5 (funext fun a => Fin.ext ?_)
  match a with
  | ⟨0, _⟩ => rfl
  | ⟨1, _⟩ => exact Nat.mod_eq_of_lt q.isLt

/-- The bias row likewise reads row 1 of the bias table. -/
theorem bias1 (x6 : FVec Ideal S2x128 .f32) (p : Fin 100000) (q : Fin 128) :
    val_main_v78 (F := Ideal) x6 (ix2 p q) = Gcn.sliceRow 1 x6 (ix2 0 q) := by
  rw [val_main_v78_apply, val_main_v77_apply, val_main_v55_apply, val_main_v54_apply]
  unfold Gcn.sliceRow
  refine congrArg x6 (funext fun a => Fin.ext ?_)
  match a with
  | ⟨0, _⟩ => rfl
  | ⟨1, _⟩ => exact Nat.mod_eq_of_lt q.isLt

theorem ln1_eq (x0 : FVec Ideal S100000x128 .f32) (x1 : IVec S2x1600000 32) (x2 : FVec Ideal S1600000 .f32)
    (x3 : FVec Ideal S128x128 .f32) (x4 : FVec Ideal S128 .f32) (x5 x6 : FVec Ideal S2x128 .f32) :
    val_main_v80 (F := Ideal) x0 x1 x2 x3 x4 x5 x6
      = Gcn.lnG (val_main_v51 (F := Ideal) x0 x1 x2 x3 x4 x5 x6) (Gcn.sliceRow 1 x5) (Gcn.sliceRow 1 x6) := by
  funext i
  obtain ⟨p, q, rfl⟩ : ∃ (p : Fin 100000) (q : Fin 128), i = ix2 p q := ⟨i 0, i 1, eq_ix2 i⟩
  rw [val_main_v80_apply, val_main_v79_apply, val_main_v76_apply, val_main_v73_apply, val_main_call1_v0_apply,
    val_main_call1_cst_apply, devB1, rstd1, scale1, bias1, Ideal.maximumf_def, Ideal.addf_def, Ideal.mulf_def,
    Ideal.mulf_def, Ideal.ofBits_def]
  generalize val_main_v51 (F := Ideal) x0 x1 x2 x3 x4 x5 x6 = h
  rfl

end Cert.ReferenceIdeal.RefValue

end
-- ==== Proof.RefValue.lean ====
/-
  What the reference program leaves in its result array, as the same composition the kernel's program computes: the
  linear layer, LayerNorm with the first rows of scale and bias and the maximum with zero, one aggregation over the
  edges, the residual sum with the linear layer's output, LayerNorm with the second rows, and a second aggregation.
  The aggregation (gather the source rows, weight each edge, add into the destination rows) is carried as one
  function `aggR` and never opened.
-/
import proofs.«424276_j34720515620917_2_alg».proof.Proof.Gen.ReferenceIdeal.Read
import proofs.«424276_j34720515620917_2_alg».proof.Proof.Spec
import proofs.«424276_j34720515620917_2_alg».proof.Proof.RefLinear
import proofs.«424276_j34720515620917_2_alg».proof.Proof.RefNorm

noncomputable section

namespace Cert.ReferenceIdeal.RefValue

open Idealize.ShloMosaic Cert.ReferenceIdeal Cert.ReferenceIdeal.Gen Cert.ReferenceIdeal.Read

/-- One message-passing step of the reference: gather the rows of `h` at the (normalised) source nodes, weight edge
    `e`'s row by its feature, and add the rows into a zero array at the destination nodes. -/
def aggR (h : FVec Ideal S100000x128 .f32) (x1 : IVec S2x1600000 32) (x2 : FVec Ideal S1600000 .f32) : FVec Ideal S100000x128 .f32 :=
  Host.scatterAdd Cert.ReferenceIdeal.scatter_S100000x128_S1600000x1_S1600000x128_1_0_0_1 (val_main_v48 (F := Ideal)) (val_main_v49 (F := Ideal) x1)
    (mulf (Host.gather Cert.ReferenceIdeal.gather_S100000x128_S1600000x1_S1600000x128_1_0_n_n_0_1_1128 h (val_main_v43 (F := Ideal) x1)) (val_main_v46 (F := Ideal) x2))

variable (x0 : FVec Ideal S100000x128 .f32) (x1 : IVec S2x1600000 32) (x2 : FVec Ideal S1600000 .f32)
  (x3 : FVec Ideal S128x128 .f32) (x4 : FVec Ideal S128 .f32) (x5 x6 : FVec Ideal S2x128 .f32)

/-- The first aggregation is `aggR` of the first layer's output. -/
theorem v50_eq : val_main_v50 (F := Ideal) x0 x1 x2 x3 x4 x5 x6 = aggR (val_main_v37 (F := Ideal) x0 x3 x4 x5 x6) x1 x2 := rfl

/-- The second aggregation, the program's result, is `aggR` of the second layer's output: its index and weight
    operands are the first aggregation's, operation for operation. -/
theorem v93_eq : val_main_v93 (F := Ideal) x0 x1 x2 x3 x4 x5 x6 = aggR (val_main_v80 (F := Ideal) x0 x1 x2 x3 x4 x5 x6) x1 x2 := rfl

/-- The residual sum before the second LayerNorm. -/
theorem v51_eq : val_main_v51 (F := Ideal) x0 x1 x2 x3 x4 x5 x6
    = Gcn.addG (val_main_v50 (F := Ideal) x0 x1 x2 x3 x4 x5 x6) (val_main_v8 (F := Ideal) x0 x3 x4) := rfl

/-- The reference's result as the composition of the specification's functions and the aggregation. -/
theorem res_eq : val_main_v93 (F := Ideal) x0 x1 x2 x3 x4 x5 x6
    = aggR (Gcn.lnG (Gcn.addG (aggR (Gcn.lnG (Gcn.linG x0 (Gcn.tr x3) (Gcn.rowOf x4)) (Gcn.sliceRow 0 x5) (Gcn.sliceRow 0 x6)) x1 x2)
          (Gcn.linG x0 (Gcn.tr x3) (Gcn.rowOf x4))) (Gcn.sliceRow 1 x5) (Gcn.sliceRow 1 x6)) x1 x2 := by
  rw [v93_eq, ln1_eq, v51_eq, v50_eq, ln0_eq, lin_eq]

end Cert.ReferenceIdeal.RefValue

end
-- ==== Proof.lean ====
/-
  The certificate of the tiled graph-convolution pipeline against its whole-array reference, over the extended reals.

  Both programs compute, from node features x, a weight w, a bias b, two rows each of a scale and a bias table, an
  edge list (source row, destination row) and one weight per edge:
      h0 = x · wᵀ + b
      h1 = max (LayerNorm (h0) · scale₀ + bias₀, 0)
      g1 = Σ over edges e into node d of  h1[src e] · weight e
      h2 = max (LayerNorm (g1 + h0) · scale₁ + bias₁, 0)
      result = Σ over edges e into node d of  h2[src e] · weight e
  where LayerNorm of a row subtracts the row's mean and multiplies by the inverse square root of the row's variance
  plus a small offset. The kernel's program computes h0, h1 and h2 in three tiled regions, 2000 rows at a time, every
  row's mean and variance inside its own block, and gathers rows with a fill for node numbers out of range; the
  reference computes them on whole arrays and gathers without a fill. Under the precondition every source node number is
  in range, so the fill never applies. No law of the extended reals beyond the operations themselves is needed: the two
  sides are the same operations in the same order, and what is proved is that the tiling, the layouts and the index
  arithmetic agree.

  The three frames are the generated ones (the reference's is its generated run with the result dropped); the
  idealization rewrote nothing, so `preserves` is trivial; `algebraic` puts the kernel's run with its result named
  beside the reference's generated run and identifies both results with the composition above.
-/
import proofs.«424276_j34720515620917_2_alg».proof.Defs
import proofs.«424276_j34720515620917_2_alg».proof.Proof.Gen.Kernel
import proofs.«424276_j34720515620917_2_alg».proof.Proof.Gen.Kernel.Skeleton
import proofs.«424276_j34720515620917_2_alg».proof.Proof.Gen.Kernel.Launch
import proofs.«424276_j34720515620917_2_alg».proof.Proof.Gen.Kernel.Points
import proofs.«424276_j34720515620917_2_alg».proof.Proof.Gen.Kernel.Frame
import proofs.«424276_j34720515620917_2_alg».proof.Proof.Gen.KernelIdeal
import proofs.«424276_j34720515620917_2_alg».proof.Proof.Gen.KernelIdeal.Skeleton
import proofs.«424276_j34720515620917_2_alg».proof.Proof.Gen.KernelIdeal.Launch
import proofs.«424276_j34720515620917_2_alg».proof.Proof.Gen.KernelIdeal.Points
import proofs.«424276_j34720515620917_2_alg».proof.Proof.Gen.KernelIdeal.Frame
import proofs.«424276_j34720515620917_2_alg».proof.Proof.Gen.ReferenceIdeal
import proofs.«424276_j34720515620917_2_alg».proof.Proof.Gen.ReferenceIdeal.Run
import proofs.«424276_j34720515620917_2_alg».proof.Proof.Gen.ReferenceIdeal.Read
import proofs.«424276_j34720515620917_2_alg».proof.Proof.Gen.Pre_finite_inputs
import proofs.«424276_j34720515620917_2_alg».proof.Proof.RunValue
import proofs.«424276_j34720515620917_2_alg».proof.Proof.KernelValue
import proofs.«424276_j34720515620917_2_alg».proof.Proof.RefValue
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two results are one function of the arguments -/

/-- The reference's aggregation and the kernel program's are the same host operations on the same operands. -/
theorem agg_bridge (h : FVec Ideal Cert.KernelIdeal.S100000x128 .f32) (x1 : IVec Cert.KernelIdeal.S2x1600000 32)
    (x2 : FVec Ideal Cert.KernelIdeal.S1600000 .f32) :
    Cert.ReferenceIdeal.RefValue.aggR h x1 x2 = Cert.KernelIdeal.KernelValue.agg h x1 x2 := rfl

open Cert.KernelIdeal.KernelValue in
/-- From memories that agree on the arguments both programs end with the same result array: the second aggregation of
    the second layer's output. -/
theorem algebraic : Cert.algebraic_KernelIdeal_ReferenceIdeal := by
  intro m ρ m' ρ' hpre hagree
  refine ⟨fun c => agg (Gcn.lnG (Gcn.addG (agg (h1 m c) (a1 m c) (a2 m c)) (h0 m c)) (Gcn.sliceRow 1 (a5 m c)) (Gcn.sliceRow 1 (a6 m c))) (a1 m c) (a2 m c), ?_, ?_⟩
  · exact (θ_run Cert.KernelIdeal.defs _ _).mono
      (fun r h c => ⟨(h c).1.trans (result_eq m ρ c (hpre c)), (h c).2⟩)
      (Cert.KernelIdeal.RunValue.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v93_eq, e0, e1, e2, e3, e4, e5, e6, Cert.ReferenceIdeal.RefValue.res_eq,
      agg_bridge, agg_bridge]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
